-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16384x512 .f32) (main_arg1 : FVec F S1024x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S16384x512 : Shape := ⟨2, ![16384, 512]⟩
abbrev S1024x512 : Shape := ⟨2, ![1024, 512]⟩
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x1024, .f32⟩
  | .local _ .vmem, ⟨4, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  bitsLt_bf16_f32 : FTy.bits .bf16 < FTy.bits .f32
  broadcasts_S1024x1_S1024x1024 : S1024x1.Broadcasts S1024x1024
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1024 : Shape := ⟨1, ![1024]⟩
abbrev S16384x1024 : Shape := ⟨2, ![16384, 1024]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x512, .f32⟩
  | .hbm, ⟨7, _⟩ => ⟨S_, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1024x512_S1024_d1 : S1024x512.ReducesTo [1] S1024
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x512_S1024x512_S16384x1024_1_1_0_0_n_n_wf : DotDims.WF S16384x512 S1024x512 S16384x1024 [1] [1] [0] [0] [] []

variable [Facts₀]

def dot_S16384x512_S1024x512_S16384x1024_1_1_0_0_n_n : DotDims S16384x512 S1024x512 S16384x1024 where
  lhsContracting := [1]
  rhsContracting := [1]
  lhsNonContracting := [0]
  rhsNonContracting := [0]
  lhsBatch := []
  rhsBatch := []
  wf := dot_S16384x512_S1024x512_S16384x1024_1_1_0_0_n_n_wf

class Facts : Prop extends Facts₀ where

variable [Facts]
-- ==== Proof.InvDist.lean ====
/-
  What both programs compute, as ONE function of the two argument arrays.

  Row `n` of the first array is a point `x n` with 512 coordinates, row `o` of the second a centre `μ o`. The squared
  distance between them is expanded as `(‖x n‖² − 2·⟨x n, μ o⟩) + ‖μ o‖²`, in exactly this grouping, and the entry
  `(n, o)` of the result is its reciprocal square root. The three sums run over the 512 coordinates, on the extended
  reals, so no order of summation is left in them. The factor two is kept as the float word of 2.0: both programs
  carry the same word, so what it denotes is never asked.
-/
import Idealize.ShloMosaic.PureOps.Ideal
import Idealize.ShloMosaic.Lib.ValueIdx

noncomputable section

namespace Cert.InvDist

open Idealize.ShloMosaic Idealize.ShloMosaic.ValueIdx

/-- The squared norm of row `r` of an array with 512 columns: the sum of the squares of its coordinates. -/
def sqNorm {R : ℕ} (a : (⟨2, ![R, 512]⟩ : Shape).Idx → EReal) (r : Fin R) : EReal :=
  ∑ k : Fin 512, a (ix2 r k) * a (ix2 r k)

/-- The inner product of row `r` of one array with row `s` of another, both with 512 columns. -/
def rowDot {R S : ℕ} (a : (⟨2, ![R, 512]⟩ : Shape).Idx → EReal) (b : (⟨2, ![S, 512]⟩ : Shape).Idx → EReal)
    (r : Fin R) (s : Fin S) : EReal :=
  ∑ k : Fin 512, a (ix2 r k) * b (ix2 s k)

/-- A squared norm depends only on the row's 512 entries: two rows that agree coordinate by coordinate, in whatever
    arrays they lie, have the same one. -/
theorem sqNorm_congr {R R' : ℕ} {a : (⟨2, ![R, 512]⟩ : Shape).Idx → EReal} {a' : (⟨2, ![R', 512]⟩ : Shape).Idx → EReal}
    {r : Fin R} {r' : Fin R'} (h : ∀ k : Fin 512, a (ix2 r k) = a' (ix2 r' k)) : sqNorm a r = sqNorm a' r' :=
  Finset.sum_congr rfl fun k _ => by rw [h k]

/-- Likewise an inner product depends only on the two rows' entries. -/
theorem rowDot_congr {R R' S S' : ℕ} {a : (⟨2, ![R, 512]⟩ : Shape).Idx → EReal} {a' : (⟨2, ![R', 512]⟩ : Shape).Idx → EReal}
    {b : (⟨2, ![S, 512]⟩ : Shape).Idx → EReal} {b' : (⟨2, ![S', 512]⟩ : Shape).Idx → EReal}
    {r : Fin R} {r' : Fin R'} {s : Fin S} {s' : Fin S'}
    (ha : ∀ k : Fin 512, a (ix2 r k) = a' (ix2 r' k)) (hb : ∀ k : Fin 512, b (ix2 s k) = b' (ix2 s' k)) :
    rowDot a b r s = rowDot a' b' r' s' :=
  Finset.sum_congr rfl fun k _ => by rw [ha k, hb k]

/-- One entry from its three sums: `rsqrt ((‖x‖² − 2·⟨x, μ⟩) + ‖μ‖²)`. -/
def entry (nx cross nm : EReal) : EReal :=
  Ideal.rsqrt ((nx - Ideal.ofBits .f32 0x40000000#32 * cross) + nm)

/-- The whole result: entry `(n, o)` from point `n` and centre `o`. -/
def invDist (x : (⟨2, ![16384, 512]⟩ : Shape).Idx → EReal) (μ : (⟨2, ![1024, 512]⟩ : Shape).Idx → EReal) :
    (⟨2, ![16384, 1024]⟩ : Shape).Idx → EReal :=
  fun i => entry (sqNorm x (i 0)) (rowDot x μ (i 0) (i 1)) (sqNorm μ (i 1))

end Cert.InvDist

end
-- ==== Proof.BodyValue.lean ====
/-
  The kernel body's one stored value, read at an entry.

  At a grid point the body holds a block `x` of 1024 points and the whole array `μ` of 1024 centres, 512 coordinates
  each. It forms the row sums of `x ∘ x` (kept as a column) and of `μ ∘ μ` (laid out as a row), the product
  `x · μᵀ` contracted over the 512 coordinates into a zero accumulator, and stores `rsqrt ((‖x‖² − 2·x μᵀ) + ‖μ‖²)`.
  On the extended reals the narrowing of the two operands before the product is the identity, the product into the zero
  accumulator is the plain sum of products, and each row sum is the plain sum of squares: so entry `(p, q)` of the
  stored block is `entry ‖x p‖² ⟨x p, μ q⟩ ‖μ q‖²`.
-/
import proofs.«156633_j81269371175174_1_alg».proof.Proof.Gen.KernelIdeal.Skeleton
import proofs.«156633_j81269371175174_1_alg».proof.Proof.InvDist
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Cert.InvDist
open Idealize.ShloMosaic Idealize.ShloMosaic.ValueIdx

variable {α : Type}

/-! ## The two layout steps of a kept column: `[a] → [a, 1] → [a, b]` -/

/-- A vector of 1024 entries laid out as a column reads, at `(p, u)`, the vector at `p`. -/
theorem column_apply (v : (⟨1, ![1024]⟩ : Shape).Idx → α) (h : (⟨1, ![1024]⟩ : Shape).ShapeCasts ⟨2, ![1024, 1]⟩)
    (p : Fin 1024) (u : Fin 1) : shapeCast ⟨2, ![1024, 1]⟩ v h (ix2 p u) = v (ix1 p) :=
  shapeCast_apply v h _ _ (by
    have hu : u.val = 0 := by omega
    rw [Shape.rowMajor_val_two, Shape.rowMajor_val_one]
    show p.val = p.val * 1 + u.val
    omega)

/-- A column broadcast along the rows' entries reads, at `(p, q)`, the column at `p`. -/
theorem column_spread_apply (v : (⟨2, ![1024, 1]⟩ : Shape).Idx → α)
    (h : (⟨2, ![1024, 1]⟩ : Shape).Broadcasts ⟨2, ![1024, 1024]⟩) (p q : Fin 1024) :
    broadcastTo ⟨2, ![1024, 1024]⟩ v h (ix2 p q) = v (ix2 p (0 : Fin 1)) := by
  refine broadcastTo_apply v h (ix2 p q) (ix2 p (0 : Fin 1)) fun ax => ?_
  match ax with
  | ⟨0, _⟩ => show p.val = if (1024 : ℕ) = 1 then 0 else p.val; rw [if_neg (by decide)]
  | ⟨1, _⟩ => show 0 = if (1 : ℕ) = 1 then 0 else q.val; rw [if_pos rfl]

/-! ## The row sums of squares -/

/-- The lane sum of `v ∘ v` along the 512 coordinates, at row `p`, is that row's squared norm. -/
theorem rowSquares_apply (v : FVec Ideal S1024x512 .f32) (p : Fin 1024) :
    multiReduction .add [1] S1024 (mulf v v) 0x00000000#32 reduces_S1024x512_S1024 (.inl rfl) rfl (ix1 p)
      = sqNorm v p := by
  refine (Ideal.multiReduction_add_single (mulf v v) 0x00000000#32 reduces_S1024x512_S1024 (.inl rfl) rfl (ix1 p)).trans ?_
  unfold sqNorm
  refine Finset.sum_congr rfl fun k _ => ?_
  have e : reduces_S1024x512_S1024.lift (ix1 p) k = ix2 p k :=
    funext fun a => Fin.ext (by match a with | ⟨0, _⟩ => rfl | ⟨1, _⟩ => rfl)
  show v _ * v _ = _
  rw [e]
  rfl

/-- The points' squared norms, kept as a column and spread over the centres: entry `(p, q)` is `‖v p‖²`. -/
theorem pointNorms_apply (v : FVec Ideal S1024x512 .f32) (p q : Fin 1024) :
    broadcastTo S1024x1024 (shapeCast S1024x1
        (multiReduction .add [1] S1024 (mulf v v) 0x00000000#32 reduces_S1024x512_S1024 (.inl rfl) rfl)
        shapeCasts_S1024_S1024x1) broadcasts_S1024x1_S1024x1024 (ix2 p q)
      = sqNorm v p :=
  (column_spread_apply _ _ p q).trans ((column_apply _ _ p 0).trans (rowSquares_apply v p))

/-- The centres' squared norms, laid out as one row and repeated for every point: entry `(p, q)` is `‖v q‖²`. -/
theorem centreNorms_apply (v : FVec Ideal S1024x512 .f32) (p q : Fin 1024) :
    broadcastTo S1024x1024 (shapeCast S1x1024
        (multiReduction .add [1] S1024 (mulf v v) 0x00000000#32 reduces_S1024x512_S1024 (.inl rfl) rfl)
        shapeCasts_S1024_S1x1024) broadcasts_S1x1024_S1024x1024 (ix2 p q)
      = sqNorm v q :=
  (broadcastTo_1b_ab_apply _ _ p q).trans ((shapeCast_a_1a_apply _ _ 0 q).trans (rowSquares_apply v q))

/-! ## The product `x · μᵀ` -/

theorem lhs_cross_0 (i : S1024x1024.Idx) (r : dot_S1024x512_S1024x512_S1024x1024_1_1_0_0_n_n.contr.Idx) :
    (dot_S1024x512_S1024x512_S1024x1024_1_1_0_0_n_n.lhsIdx i r 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_cross_1 (i : S1024x1024.Idx) (r : dot_S1024x512_S1024x512_S1024x1024_1_1_0_0_n_n.contr.Idx) :
    (dot_S1024x512_S1024x512_S1024x1024_1_1_0_0_n_n.lhsIdx i r 1).val = (r ⟨0, by decide⟩).val :=
  dot_S1024x512_S1024x512_S1024x1024_1_1_0_0_n_n.lhsIdx_val_of_single rfl i r
theorem rhs_cross_0 (i : S1024x1024.Idx) (r : dot_S1024x512_S1024x512_S1024x1024_1_1_0_0_n_n.contr.Idx) :
    (dot_S1024x512_S1024x512_S1024x1024_1_1_0_0_n_n.rhsIdx i r 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_cross_1 (i : S1024x1024.Idx) (r : dot_S1024x512_S1024x512_S1024x1024_1_1_0_0_n_n.contr.Idx) :
    (dot_S1024x512_S1024x512_S1024x1024_1_1_0_0_n_n.rhsIdx i r 1).val = (r ⟨0, by decide⟩).val :=
  dot_S1024x512_S1024x512_S1024x1024_1_1_0_0_n_n.rhsIdx_val_of_single rfl i r

/-- The product of the narrowed blocks into a zero accumulator, at `(p, q)`, is the inner product of point `p` with
    centre `q`: both operands are contracted on their 512 coordinates, and narrowing is the identity on the
    extended reals. -/
theorem cross_apply (x μ : FVec Ideal S1024x512 .f32) (p q : Fin 1024) :
    matmul dot_S1024x512_S1024x512_S1024x1024_1_1_0_0_n_n none (truncf .bf16 x bitsLt_bf16_f32) (truncf .bf16 μ bitsLt_bf16_f32)
        (constant S1024x1024 .f32 0x00000000#32) (ix2 p q)
      = rowDot x μ p q := by
  refine (Ideal.matmul_constant_zero_apply dot_S1024x512_S1024x512_S1024x1024_1_1_0_0_n_n none _ _ (ix2 p q)).trans ?_
  rw [← Equiv.sum_comp (ValueIdx.contrEquiv1 dot_S1024x512_S1024x512_S1024x1024_1_1_0_0_n_n 512 rfl rfl).symm]
  unfold rowDot
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact lhs_cross_0 _ _
    | ⟨1, _⟩ => exact (lhs_cross_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact rhs_cross_0 _ _
    | ⟨1, _⟩ => exact (rhs_cross_1 _ _).trans hk)
  rw [el, er]
  rfl

/-! ## The stored value -/

/-- Entry `(p, q)` of the block the body stores, from the block of points `x` and the centres `μ`. -/
theorem stored_apply (x μ : FVec Ideal S1024x512 .f32) (p q : Fin 1024) :
    k0_pay1 (F := Ideal) x μ (ix2 p q) = entry (sqNorm x p) (rowDot x μ p q) (sqNorm μ q) := by
  have h1 := pointNorms_apply x p q
  have h2 := cross_apply x μ p q
  have h3 := centreNorms_apply μ p q
  unfold entry
  rw [← h1, ← h2, ← h3]
  rfl

end Cert.KernelIdeal.BodyValue

end
-- ==== Proof.WholeArray.lean ====
/-
  From blocks to the whole result array.

  The grid has 16 points. At point `t` the body sees rows `1024·t … 1024·t + 1023` of the points' array (all 512
  columns) and the whole centres' array, and what it stores is written back to rows `1024·t … 1024·t + 1023` of the
  result (all 1024 columns). An entry of the stored block depends only on one row of the point block and one row of the
  centres, so it is the specification's entry at the array row the block row comes from: what point `t` writes back is
  block `t` of the specification. The 16 row blocks cover the result array, so after the run the array is the
  specification of the two argument arrays.
-/
import proofs.«156633_j81269371175174_1_alg».proof.Proof.Gen.KernelIdeal.Value
import proofs.«156633_j81269371175174_1_alg».proof.Proof.BodyValue
import Idealize.ShloMosaic.Lib.Pipeline.Value
import Idealize.ShloMosaic.Lib.ValueIdx

noncomputable section

namespace Cert.KernelIdeal.ArrayValue

open Cert.KernelIdeal Cert.KernelIdeal.Gen Cert.KernelIdeal.Value Cert.KernelIdeal.BodyValue Cert.InvDist
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The points' array and the centres' array as the region finds them. -/
abbrev points (c : Dev nD) : S16384x512.Idx → EReal := V m c main_arg0
abbrev centres (c : Dev nD) : S1024x512.Idx → EReal := V m c main_arg1

/-- The block indices over the grid: the point block moves down the rows with the result block, both stay in column
    block 0, the centres' block never moves, and there are 16 row blocks. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every one of the 16 row blocks of the result is some point's. -/
theorem idx_onto : ∀ b : Fin 16, ∃ t : Fin cfg0.N, win0_2.index t = ![b.val, 0] :=
  (by decide +kernel : ∀ b : Fin 16, ∃ t : Fin grid0.N, win0_2.index t = ![b.val, 0])

/-- Row `p` of the point block at `t` is row `n` of the points' array, `n` = (row block) · 1024 + `p`. -/
theorem pointBlock_apply (c : Dev nD) (t : Fin cfg0.N) (p : Fin 1024) (k : Fin 512) (n : Fin 16384)
    (hn : n.val = win0_2.index t (0 : Fin 2) * 1024 + p.val) :
    (iblk m c 0 t : FVec Ideal S1024x512 .f32) (ix2 p k) = points m c (ix2 n k) := by
  obtain ⟨e0, e1, -, -, -, -⟩ := idx_facts t
  show V m c main_arg0 (((cfg0.win 0).blk t).view.emb (ix2 p k)) = V m c main_arg0 (ix2 n k)
  refine congrArg _ (funext fun a => Fin.ext ?_)
  match a with
  | ⟨0, _⟩ => show win0_0.index t (0 : Fin 2) * 1024 + 1 * p.val = n.val; omega
  | ⟨1, _⟩ => show win0_0.index t (1 : Fin 2) * 512 + 1 * k.val = k.val; omega

/-- The centres' block at any point is the whole centres' array. -/
theorem centreBlock_apply (c : Dev nD) (t : Fin cfg0.N) (q : Fin 1024) (k : Fin 512) :
    (iblk m c 1 t : FVec Ideal S1024x512 .f32) (ix2 q k) = centres m c (ix2 q k) := by
  obtain ⟨-, -, e2, e3, -, -⟩ := idx_facts t
  show V m c main_arg1 (((cfg0.win 1).blk t).view.emb (ix2 q k)) = V m c main_arg1 (ix2 q k)
  refine congrArg _ (funext fun a => Fin.ext ?_)
  match a with
  | ⟨0, _⟩ => show win0_1.index t (0 : Fin 2) * 1024 + 1 * q.val = q.val; omega
  | ⟨1, _⟩ => show win0_1.index t (1 : Fin 2) * 512 + 1 * k.val = k.val; omega

/-- WHAT POINT `t` WRITES BACK is block `t` of the specification of the two argument arrays. -/
theorem flushed_eq (c : Dev nD) (t : Fin cfg0.N) :
    (dats m 0 c).flushed 2 t
      = ((cfg0.win 2).blk t).view.read (Elt Ideal) (invDist (points m c) (centres m c)) := by
  rw [Value.flushed2]
  unfold out0_2
  rw [View.canon_unit_zero hz]
  simp only [View.ld_unit_zero (S := S1024x512) hz]
  obtain ⟨-, -, -, -, e4, -⟩ := idx_facts t
  funext j
  obtain ⟨p, q, rfl⟩ : ∃ (p : Fin 1024) (q : Fin 1024), j = ix2 p q := ⟨j 0, j 1, eq_ix2 j⟩
  show k0_pay1 (F := Ideal) (iblk m c 0 t) (iblk m c 1 t) (ix2 p q)
    = invDist (points m c) (centres m c) (((cfg0.win 2).blk t).view.emb (ix2 p q))
  refine (stored_apply (iblk m c 0 t) (iblk m c 1 t) p q).trans ?_
  have hn : ((((cfg0.win 2).blk t).view.emb (ix2 p q)) 0).val = win0_2.index t (0 : Fin 2) * 1024 + p.val := by
    show win0_2.index t (0 : Fin 2) * 1024 + 1 * p.val = _; omega
  have ho : ((((cfg0.win 2).blk t).view.emb (ix2 p q)) 1).val = q.val := by
    show win0_2.index t (1 : Fin 2) * 1024 + 1 * q.val = _; omega
  have hx : ∀ k : Fin 512, (iblk m c 0 t : FVec Ideal S1024x512 .f32) (ix2 p k)
      = points m c (ix2 ((((cfg0.win 2).blk t).view.emb (ix2 p q)) 0) k) :=
    fun k => pointBlock_apply m c t p k _ hn
  have hμ : ∀ k : Fin 512, (iblk m c 1 t : FVec Ideal S1024x512 .f32) (ix2 q k)
      = centres m c (ix2 ((((cfg0.win 2).blk t).view.emb (ix2 p q)) 1) k) :=
    fun k => (centreBlock_apply m c t q k).trans (congrArg (fun r => centres m c (ix2 r k)) (Fin.ext ho.symm))
  unfold invDist
  exact congr (congr (congrArg entry (sqNorm_congr hx)) (rowDot_congr hx hμ)) (sqNorm_congr hμ)

/-- An index of the result is in point `t`'s block iff each coordinate is in the block's range on its axis. -/
theorem mem_blk (t : Fin cfg0.N) (i : S16384x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result lies in the block of the point whose row block holds its row. -/
theorem covered (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run is the specification of the two argument arrays. -/
theorem final (c : Dev nD) : (dats m 0 c).arrAt 2 cfg0.N = invDist (points m c) (centres m c) :=
  (dats m 0 c).arrAt_eq_of_cover 2 (invDist (points m c) (centres m c)) (fun t _ => flushed_eq m c t) covered

/-- The run, read: the result array at the specification, the arguments unchanged. -/
theorem run : θ_run defs (onTc (τ := τ) (main (F := Ideal))) ⟨m, fun _ => 0, ρ⟩ fun r => ∀ c : Dev nD,
      r.2.mem ((c : Thread nD τ).loc main_v0)
        = invDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference's result is the same function.

  The host program squares each array, sums each row of the squares from a zero start, multiplies the two arrays with
  both contracted on their 512 coordinates, and ends with `rsqrt ((‖x n‖² − 2·⟨x n, μ o⟩) + ‖μ o‖²)` after spreading the
  point norms over the columns and the centre norms over the rows. Read at an entry `(n, o)`, stage by stage, the
  zero start of each row sum disappears and what is left is `entry ‖x n‖² ⟨x n, μ o⟩ ‖μ o‖²`: the specification.
-/
import proofs.«156633_j81269371175174_1_alg».proof.Proof.Gen.ReferenceIdeal.Read
import proofs.«156633_j81269371175174_1_alg».proof.Proof.InvDist
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.InvDist
open Idealize.ShloMosaic Idealize.ShloMosaic.ValueIdx

/-- The coordinate the point norms are read at, through the two spreads and the row sum: `(n, k)`. -/
theorem pointIdx (i : S16384x1024.Idx) (k : Fin 512) :
    idx_main_v1 (idx_main_v2 (idx_main_v8 i)) k = ix2 (i 0) k :=
  funext fun a => Fin.ext (by match a with | ⟨0, _⟩ => rfl | ⟨1, _⟩ => rfl)

/-- The coordinate the centre norms are read at: `(o, k)`. -/
theorem centreIdx (i : S16384x1024.Idx) (k : Fin 512) :
    idx_main_v4 (idx_main_v10 (idx_main_v11 i)) k = ix2 (i 1) k :=
  funext fun a => Fin.ext (by match a with | ⟨0, _⟩ => rfl | ⟨1, _⟩ => rfl)

/-- The product's left operand is read at `(n, k)`, -/
theorem crossLeftIdx (i : S16384x1024.Idx) (k : Fin 512) : lidx_main_v5 i k = ix2 (i 0) k :=
  funext fun a => Fin.ext (by match a with | ⟨0, _⟩ => rfl | ⟨1, _⟩ => rfl)

/-- and its right operand at `(o, k)`. -/
theorem crossRightIdx (i : S16384x1024.Idx) (k : Fin 512) : ridx_main_v5 i k = ix2 (i 1) k :=
  funext fun a => Fin.ext (by match a with | ⟨0, _⟩ => rfl | ⟨1, _⟩ => rfl)

/-- The reference's last stage is the specification, entry by entry. -/
theorem result_eq (x : (⟨S16384x512, .f32⟩ : BufTy).Contents (Elt Ideal)) (μ : (⟨S1024x512, .f32⟩ : BufTy).Contents (Elt Ideal)) :
    val_main_v13 (F := Ideal) x μ = invDist x μ := by
  funext i
  rw [val_main_v13_apply, val_main_v12_apply, val_main_v9_apply, val_main_v8_apply, val_main_v2_apply,
    val_main_v1_apply, val_main_v7_apply, val_main_v6_apply, val_main_v5_apply, val_main_v11_apply,
    val_main_v10_apply, val_main_v4_apply]
  simp only [val_main_cst_apply, val_main_cst_0_apply, val_main_cst_1_apply, val_main_v0_apply, val_main_v3_apply,
    pointIdx, centreIdx, crossLeftIdx, crossRightIdx,
    Ideal.ofBits_def, Ideal.ofBits_zero_f32, zero_add, Ideal.addf_def, Ideal.subf_def, Ideal.mulf_def,
    Ideal.hostUnary_rsqrt_def]
  rfl

end Cert.ReferenceIdeal.RefValue

end
-- ==== Proof.lean ====
/-
  The kernel computes, for 16384 points and 1024 centres with 512 coordinates each, the reciprocal square root of the
  squared distance expanded as `(‖x n‖² − 2·⟨x n, μ o⟩) + ‖μ o‖²`; the reference computes the same expansion with
  array operations. On the extended reals both are one function of the two argument arrays (Proof/InvDist.lean):

  • the kernel's stored block, entry by entry, is the specification's entry of one row of the point block and one row of
    the centres (Proof/BodyValue.lean): the row sums of squares are plain sums, the product into a zero accumulator is
    the plain sum of products, narrowing before the product is the identity;
  • the 16 row blocks the grid writes back tile the result array, and block `t` is the specification read at rows
    `1024·t …` (Proof/WholeArray.lean);
  • the reference's last stage, read entry by entry through its spreads and row sums, is the specification
    (Proof/RefValue.lean).

  Both sides group the three terms the same way and carry the same word for the factor two, so no algebraic law joins
  them and the finiteness of the inputs is never used. The idealization rewrote nothing, so `preserves` is trivial; the
  kernel's two frames are the generated ones, and the reference's frame is its run with the result dropped.
-/
import proofs.«156633_j81269371175174_1_alg».proof.Defs
import proofs.«156633_j81269371175174_1_alg».proof.Proof.Gen.Kernel
import proofs.«156633_j81269371175174_1_alg».proof.Proof.Gen.Kernel.Skeleton
import proofs.«156633_j81269371175174_1_alg».proof.Proof.Gen.Kernel.Launch
import proofs.«156633_j81269371175174_1_alg».proof.Proof.Gen.Kernel.Points
import proofs.«156633_j81269371175174_1_alg».proof.Proof.Gen.Kernel.Frame
import proofs.«156633_j81269371175174_1_alg».proof.Proof.Gen.KernelIdeal
import proofs.«156633_j81269371175174_1_alg».proof.Proof.Gen.KernelIdeal.Skeleton
import proofs.«156633_j81269371175174_1_alg».proof.Proof.Gen.KernelIdeal.Launch
import proofs.«156633_j81269371175174_1_alg».proof.Proof.Gen.KernelIdeal.Points
import proofs.«156633_j81269371175174_1_alg».proof.Proof.Gen.KernelIdeal.Frame
import proofs.«156633_j81269371175174_1_alg».proof.Proof.Gen.ReferenceIdeal
import proofs.«156633_j81269371175174_1_alg».proof.Proof.Gen.Pre_finite_inputs
import proofs.«156633_j81269371175174_1_alg».proof.Proof.Gen.KernelIdeal.Value
import proofs.«156633_j81269371175174_1_alg».proof.Proof.Gen.ReferenceIdeal.Run
import proofs.«156633_j81269371175174_1_alg».proof.Proof.Gen.ReferenceIdeal.Read
import proofs.«156633_j81269371175174_1_alg».proof.Proof.InvDist
import proofs.«156633_j81269371175174_1_alg».proof.Proof.BodyValue
import proofs.«156633_j81269371175174_1_alg».proof.Proof.WholeArray
import proofs.«156633_j81269371175174_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the result array at the specification of
    those arguments: the kernel by its blocks, the reference by its stages. -/
theorem algebraic : Cert.algebraic_KernelIdeal_ReferenceIdeal := by
  intro m ρ m' ρ' _ hagree
  refine ⟨fun c => Cert.InvDist.invDist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
